-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432x1 : Shape := ⟨2, ![33554432, 1]⟩
abbrev S_ : Shape := ⟨0, ![]⟩

class Facts : Prop where
  bcast_S_S33554432x1 : S_.BroadcastsInDim S33554432x1 (![] : Fin 0 → Fin S33554432x1.rank)
  reducesTo_S33554432x1_S_d0_1 : S33554432x1.ReducesTo [0, 1] S_
  h_S_ : 0 < S_.numel

variable [Facts]

def fn {F : FTy → Type} [FloatOps F] (main_arg0 : FVec F S33554432x1 .f32) (main_arg1 : FVec F S33554432x1 .f32) : IVec S_ 1 :=
  let main_v0 : FVec F S33554432x1 .f32 := Host.absf main_arg0
  let main_cst : FVec F S_ .f32 := constant S_ .f32 0x7F800000#32
  let main_v1 : FVec F S33554432x1 .f32 := broadcastInDim S33554432x1 ![] bcast_S_S33554432x1 main_cst
  let main_v2 : IVec S33554432x1 1 := cmpf .olt main_v0 main_v1
  let main_c : IVec S_ 1 := constantI S_ 1 1#1
  let main_v3 : IVec S_ 1 := (fun x v => Host.reduce IntOp.andi x v reducesTo_S33554432x1_S_d0_1 h_S_) main_v2 main_c
  let main_v4 : FVec F S33554432x1 .f32 := Host.absf main_arg1
  let main_cst_0 : FVec F S_ .f32 := constant S_ .f32 0x7F800000#32
  let main_v5 : FVec F S33554432x1 .f32 := broadcastInDim S33554432x1 ![] bcast_S_S33554432x1 main_cst_0
  let main_v6 : IVec S33554432x1 1 := cmpf .olt main_v4 main_v5
  let main_c_1 : IVec S_ 1 := constantI S_ 1 1#1
  let main_v7 : IVec S_ 1 := (fun x v => Host.reduce IntOp.andi x v reducesTo_S33554432x1_S_d0_1 h_S_) main_v6 main_c_1
  let main_v8 : IVec S_ 1 := andi main_v3 main_v7
  main_v8
-- ==== Kernel.lean ====
abbrev S33554432x1 : Shape := ⟨2, ![33554432, 1]⟩
abbrev S33554432 : Shape := ⟨1, ![33554432]⟩
abbrev S262144x128 : Shape := ⟨2, ![262144, 128]⟩
abbrev S2x8x128 : Shape := ⟨3, ![2, 8, 128]⟩
abbrev S8192x128 : Shape := ⟨2, ![8192, 128]⟩
abbrev S1x8x128 : Shape := ⟨3, ![1, 8, 128]⟩
abbrev S8x128 : Shape := ⟨2, ![8, 128]⟩
abbrev S1x8192x128 : Shape := ⟨3, ![1, 8192, 128]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S33554432x1, .f32⟩
  | .hbm, ⟨1, _⟩ => ⟨S33554432x1, .f32⟩
  | .hbm, ⟨2, _⟩ => ⟨S33554432, .f32⟩
  | .hbm, ⟨3, _⟩ => ⟨S33554432, .f32⟩
  | .hbm, ⟨4, _⟩ => ⟨S262144x128, .f32⟩
  | .hbm, ⟨5, _⟩ => ⟨S262144x128, .f32⟩
  | .hbm, ⟨6, _⟩ => ⟨S2x8x128, .f32⟩
  | .hbm, ⟨7, _⟩ => ⟨S1x1x1, .f32⟩
  | .hbm, ⟨8, _⟩ => ⟨S_, .f32⟩
  | .hbm, ⟨9, _⟩ => ⟨S1x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x8x128, .f32⟩
  | .local _ .vmem, ⟨5, _⟩ => ⟨S1x8x128, .f32⟩
  | _, _ => ⟨S33554432x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432x1_S33554432 : S33554432x1.ShapeCasts S33554432
  shapeCasts_S33554432_S262144x128 : S33554432.ShapeCasts S262144x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432x1 : Shape := ⟨2, ![33554432, 1]⟩
abbrev S33554432 : Shape := ⟨1, ![33554432]⟩
abbrev S_ : Shape := ⟨0, ![]⟩
abbrev S1 : Shape := ⟨1, ![1]⟩

abbrev nBuf : Space → Nat
  | .hbm => 23
  | .vmem => 0
  | .smem => 0
  | _ => 0

abbrev bufTy : (tb : Table) → Fin (tcTables nBuf tb) → BufTy
  | .hbm, ⟨0, _⟩ => ⟨S33554432x1, .f32⟩
  | .hbm, ⟨1, _⟩ => ⟨S33554432x1, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .f32⟩
  | .hbm, ⟨7, _⟩ => ⟨S33554432, .i1⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S33554432, .i1⟩
  | .hbm, ⟨12, _⟩ => ⟨S33554432, .i1⟩
  | .hbm, ⟨13, _⟩ => ⟨S33554432, .f32⟩
  | .hbm, ⟨14, _⟩ => ⟨S_, .i32⟩
  | .hbm, ⟨15, _⟩ => ⟨S1, .i32⟩
  | .hbm, ⟨16, _⟩ => ⟨S33554432x1, .f32⟩
  | .hbm, ⟨17, _⟩ => ⟨S33554432x1, .f32⟩
  | .hbm, ⟨18, _⟩ => ⟨S33554432x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S33554432x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S33554432x1_S33554432 : S33554432x1.ShapeCasts S33554432
  bcast_S_S33554432 : S_.BroadcastsInDim S33554432 (![] : Fin 0 → Fin S33554432.rank)
  bcast_S_S1 : S_.BroadcastsInDim S1 (![] : Fin 0 → Fin S1.rank)
  reducesTo_S33554432x1_S_d0_1 : S33554432x1.ReducesTo [0, 1] S_
  h_S_ : 0 < S_.numel
  scatter_S33554432x1_S1_S33554432_0_1_1_0_wf : ScatterDims.WF S33554432x1 S1 S33554432 [0] [1] [1] 0

variable [Facts₀]

def scatter_S33554432x1_S1_S33554432_0_1_1_0 : ScatterDims S33554432x1 S1 S33554432 where
  updateWindowDims := [0]
  insertedWindowDims := [1]
  scatterDimsToOperandDims := [1]
  indexVectorDim := 0
  wf := scatter_S33554432x1_S1_S33554432_0_1_1_0_wf

class Facts : Prop extends Facts₀ where

variable [Facts]
-- ==== Proof.Elem.lean ====
/-
  The loss of one (prediction, target) pair. With the two band factors c_hi and c_lo (the single-precision words
  nearest 1.1 and 0.9, read at their exact binary values), the target is replaced by the prediction when it lies
  strictly inside the band, p * c_hi > t and p * c_lo < t, and the loss is the square of the difference:
  0 inside the band, (p - t)^2 outside it. It is stated with the operations of an arbitrary float instance, so that
  both programs' element-by-element arithmetic is this term by unfolding alone.
-/
import Idealize.ShloMosaic.Lib.ValueIdx

noncomputable section

namespace Cert.RangeLoss

open Idealize.ShloMosaic

variable {F : FTy → Type} [FloatOps F]

/-- The band test: strictly above the lower edge and strictly below the upper one. -/
def inBand (p t : F .f32) : BitVec 1 :=
  IntOp.andi (FloatOps.cmpf .ogt (FloatOps.mulf p (FloatOps.ofBits .f32 0x3F8CCCCD#32)) t)
    (FloatOps.cmpf .olt (FloatOps.mulf p (FloatOps.ofBits .f32 0x3F666666#32)) t)

/-- The squared difference to the adjusted target. -/
def sq (p t : F .f32) : F .f32 :=
  FloatOps.mulf (FloatOps.subf p (Scalar.select (inBand p t) p t)) (FloatOps.subf p (Scalar.select (inBand p t) p t))

end Cert.RangeLoss

end
-- ==== Proof.KernelPieces.lean ====
/-
  What one grid point of the kernel leaves in the output's staging block, and that block's corner entry over the
  extended reals.

  A point that is first on its core (case A) stores the zero block and then the update of it; any other point
  (case B) stores the update of what the point before left. The update adds, to the corner entry (0, 0, 0) only, the
  sum over the point's 8192 x 128 input block of the per-pair loss `sq`; every other entry gets zero added.
  So the corner entry after a point is the corner entry before it plus the block's loss sum (`corner_B`), starting
  from that sum alone (`corner_A`: the zero word is the real number 0).
-/
import proofs.«126520_j24378234372365_1_alg».proof.Proof.Gen.KernelIdeal.Frame
import proofs.«126520_j24378234372365_1_alg».proof.Proof.Elem
import Idealize.ShloMosaic.Lib.Pipeline.Value
import Idealize.ShloMosaic.Lib.ValueIdx
import Idealize.ShloMosaic.Lib.Tactic
import Idealize.ShloMosaic.PureOps.Ideal.Laws

noncomputable section

open scoped BigOperators
open Idealize.ShloMosaic Idealize.ShloMosaic.TcCoe Idealize.SL.Sem
open Idealize.ShloMosaic.ValueIdx Cert.RangeLoss

namespace Cert.KernelIdeal.Loss

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The two cases' blocks, as the store's payload of the loads -/

/-- A later point of a core: the update of the block the point before left. -/
theorem out_B (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (hc : ¬cond0_0 i) (x0 x1 : Vec F S8192x128 .f32) (xo : Vec F S1x8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S8192x128) hz2,
    View.ld_unit_zero (S := S1x8x128) hz3]

/-- The first point of a core: the update of the zero block it has just stored. -/
theorem out_A (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (hc : cond0_0 i) (x0 x1 : Vec F S8192x128 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S8192x128) hz2,
    View.ld_unit_zero (S := S1x8x128) hz3]

/-! ## The views between [8,128] and [1,8,128], and [8192,128] under a leading unit axis -/

/-- The corner entry of the [1, 8, 128] block. -/
abbrev o3 : S1x8x128.Idx := ix3 (0 : Fin 1) (0 : Fin 8) (0 : Fin 128)
/-- The corner entry of the [8, 128] tile. -/
abbrev o2 : S8x128.Idx := ix2 (0 : Fin 8) (0 : Fin 128)

theorem addUnit_corner {α : Type} (v : S8x128.Idx → α) (h : S8x128.ShapeCasts S1x8x128) :
    shapeCast S1x8x128 v h o3 = v o2 := by
  refine (shapeCast_addUnit_apply (![8, 128]) v h o3).trans (congrArg v ?_)
  funext a
  match a with
  | ⟨0, _⟩ => rfl
  | ⟨1, _⟩ => rfl

theorem dropUnit_corner {α : Type} (v : S1x8x128.Idx → α) (h : S1x8x128.ShapeCasts S8x128) :
    shapeCast S8x128 v h o2 = v o3 := by
  refine (shapeCast_dropUnit_apply (![8, 128]) v h o2).trans (congrArg v ?_)
  funext a
  match a with
  | ⟨0, _⟩ => rfl
  | ⟨1, _⟩ => rfl
  | ⟨2, _⟩ => rfl

theorem addUnit_block {α : Type} (v : S8192x128.Idx → α) (h : S8192x128.ShapeCasts S1x8192x128) (y : S1x8192x128.Idx) :
    shapeCast S1x8192x128 v h y = v (ix2 (y 1) (y 2)) := by
  refine (shapeCast_addUnit_apply (![8192, 128]) v h y).trans (congrArg v ?_)
  funext a
  match a with
  | ⟨0, _⟩ => rfl
  | ⟨1, _⟩ => rfl

/-- The mask "row 0 and lane 0" holds at the corner. -/
theorem mask_corner (h0 : S8x128.Iotas .tc 32 [0]) (h1 : S8x128.Iotas .tc 32 [1]) :
    andi (cmpi .eq (iota .tc S8x128 32 [0] h0) (broadcast S8x128 (0#32 : BitVec 32)))
      (cmpi .eq (iota .tc S8x128 32 [1] h1) (broadcast S8x128 (0#32 : BitVec 32))) o2 = 1#1 := by
  show IntOp.andi (IntOp.cmpi .eq (iota .tc S8x128 32 [0] h0 o2) (0#32 : BitVec 32))
      (IntOp.cmpi .eq (iota .tc S8x128 32 [1] h1 o2) (0#32 : BitVec 32)) = 1#1
  rw [iota_single_apply, iota_single_apply]
  decide

/-- A sum reduction of every axis but a leading unit one, read through the [1] -> [1,1,1] view at its one entry, is the
    sum over all the source's entries. -/
theorem total_sum (src : FVec Ideal S1x8192x128 .f32) (h : S1x8192x128.Reduces [1, 2] S1) (hφ : FKind.Formats .f32)
    (hacc : (0x00000000#32 : BitVec 32) = FKind.add.neutral .f32 hφ) (hc : S1.ShapeCasts S1x1x1)
    (hp : ∀ a, (![0, 0, 0] : Fin 3 → Nat) a < S1x1x1.size a) :
    extractAt ![0, 0, 0] (shapeCast S1x1x1 (multiReduction .add [1, 2] S1 src 0x00000000#32 h hφ hacc) hc) hp
      = ∑ y : S1x8192x128.Idx, src y := by
  unfold extractAt shapeCast
  exact Ideal.multiReduction_add_total src _ h (fun b => by match b with | ⟨0, _⟩ => rfl) hφ hacc _

/-! ## The corner entry over the extended reals -/

/-- The loss sum of one 8192 x 128 block of predictions and targets. -/
def blockLoss (x0 x1 : Vec Ideal S8192x128 .f32) : Ideal .f32 :=
  ∑ y : S1x8192x128.Idx, sq (F := Ideal) (x0 (ix2 (y 1) (y 2))) (x1 (ix2 (y 1) (y 2)))

/-- The update's corner entry: the old corner entry plus the block's loss sum. -/
theorem pay2_corner (v3 v5 : Vec Ideal S8192x128 .f32) (v31 : Vec Ideal S1x8x128 .f32) :
    k0_pay2 (F := Ideal) v3 v5 v31 o3 = v31 o3 + blockLoss v3 v5 := by
  unfold k0_pay2
  dsimp only
  rw [addUnit_corner, addf_apply, dropUnit_corner, select_apply, mask_corner, select_one, broadcast_apply]
  unfold blockLoss
  refine congrArg (v31 o3 + ·) ((total_sum _ _ _ _ _ _).trans (Finset.sum_congr rfl fun y _ => ?_))
  rw [addUnit_block]
  simp only [shapeCast_self]
  rfl

/-- The zero block's corner entry is the real number 0. -/
theorem pay1_corner : k0_pay1 (F := Ideal) o3 = 0 := by
  unfold k0_pay1
  rw [addUnit_corner, broadcast_apply]
  exact Ideal.ofBits_zero_f32

theorem corner_B (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (hc : ¬cond0_0 i) (x0 x1 : Vec Ideal S8192x128 .f32) (xo : Vec Ideal S1x8x128 .f32) :
    out0_B_2 (F := Ideal) c i a2 h2 a3 h3 a4 h4 hc x0 x1 xo o3 = xo o3 + blockLoss x0 x1 := by
  rw [out_B, pay2_corner]

theorem corner_A (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (hc : cond0_0 i) (x0 x1 : Vec Ideal S8192x128 .f32) :
    out0_A_2 (F := Ideal) c i a2 h2 a3 h3 a4 h4 hc x0 x1 o3 = blockLoss x0 x1 := by
  rw [out_A, pay2_corner, pay1_corner, zero_add]

end Cert.KernelIdeal.Loss

end
-- ==== Proof.BlockSum.lean ====
/-
  The one law of this certificate: a sum over the 33554432 entries of a column equals the sum, over the 32 row
  blocks of 8192 rows, of each block's sum over its 8192 x 128 entries, where entry (r, l) of block b is the
  column's entry number (8192 b + r) * 128 + l. That is the row-major position of lane l of row 8192 b + r in the
  262144 x 128 arrangement of the same numbers. In a commutative monoid no hypothesis is needed: the map from
  (block, position in the block) to the column's entry is a bijection, and a sum may be re-indexed along a bijection
  and split over a product.
-/
import Idealize.ShloMosaic.Lib.ValueIdx

noncomputable section

open scoped BigOperators

namespace Cert.RangeLoss

open Idealize.ShloMosaic Idealize.ShloMosaic.ValueIdx

/-- The column, one block viewed with a leading unit axis, and the number of blocks. -/
abbrev Col : Shape := ⟨2, ![33554432, 1]⟩
abbrev Blk3 : Shape := ⟨3, ![1, 8192, 128]⟩

/-- Entry number of lane `l` of row `r` of block `b`. -/
def flat (b : Fin 32) (r : Fin 8192) (l : Fin 128) : Fin 33554432 :=
  ⟨(8192 * b.val + r.val) * 128 + l.val, by have := b.isLt; have := r.isLt; have := l.isLt; omega⟩

theorem flat_val (b : Fin 32) (r : Fin 8192) (l : Fin 128) : (flat b r l).val = (8192 * b.val + r.val) * 128 + l.val := rfl

/-- The column's index of a position in a block. -/
def colIdx (b : Fin 32) (y : Blk3.Idx) : Col.Idx := ix2 (flat b (y 1) (y 2)) (0 : Fin 1)

/-- (block, position in the block) and the column's entries correspond one to one. -/
def blockEquiv : Fin 32 × Blk3.Idx ≃ Col.Idx where
  toFun p := colIdx p.1 p.2
  invFun i :=
    (⟨(i 0).val / 1048576, by have h : (i 0).val < 33554432 := (i 0).isLt; omega⟩,
     ix3 (0 : Fin 1) (⟨(i 0).val / 128 % 8192, by omega⟩ : Fin 8192) (⟨(i 0).val % 128, by omega⟩ : Fin 128))
  left_inv p := by
    obtain ⟨b, y⟩ := p
    have hb := b.isLt
    have h0 : (y 0).val < 1 := (y 0).isLt
    have h1 : (y 1).val < 8192 := (y 1).isLt
    have h2 : (y 2).val < 128 := (y 2).isLt
    refine Prod.ext (Fin.ext ?_) ?_
    · show ((8192 * b.val + (y 1).val) * 128 + (y 2).val) / 1048576 = b.val
      omega
    · funext a
      apply Fin.ext
      match a with
      | ⟨0, _⟩ => show 0 = (y 0).val; omega
      | ⟨1, _⟩ => show ((8192 * b.val + (y 1).val) * 128 + (y 2).val) / 128 % 8192 = (y 1).val; omega
      | ⟨2, _⟩ => show ((8192 * b.val + (y 1).val) * 128 + (y 2).val) % 128 = (y 2).val; omega
  right_inv i := by
    have h0 : (i 0).val < 33554432 := (i 0).isLt
    have h1 : (i 1).val < 1 := (i 1).isLt
    funext a
    apply Fin.ext
    match a with
    | ⟨0, _⟩ => show (8192 * ((i 0).val / 1048576) + (i 0).val / 128 % 8192) * 128 + (i 0).val % 128 = (i 0).val; omega
    | ⟨1, _⟩ => show 0 = (i 1).val; omega

/-- The law. -/
theorem sum_blocks {M : Type*} [AddCommMonoid M] (f : Col.Idx → M) :
    ∑ i, f i = ∑ b : Fin 32, ∑ y : Blk3.Idx, f (colIdx b y) := by
  rw [← Equiv.sum_comp blockEquiv f, Fintype.sum_prod_type]
  rfl

/-- A sum over the first 32 naturals of a function that is `B` below 32 is the sum of `B`. -/
theorem sum_range_dite {M : Type*} [AddCommMonoid M] (N : ℕ) (B : Fin N → M) :
    ∑ k ∈ Finset.range N, (if h : k < N then B ⟨k, h⟩ else 0) = ∑ t : Fin N, B t := by
  rw [← Fin.sum_univ_eq_sum_range (fun k => if h : k < N then B ⟨k, h⟩ else 0) N]
  exact Finset.sum_congr rfl fun t _ => dif_pos t.isLt

end Cert.RangeLoss

end
-- ==== Proof.KernelValue.lean ====
/-
  The kernel's result over the extended reals, as one function of the two argument columns.

  Core cc (0 or 1) runs points 16 cc .. 16 cc + 15; point n reads rows 8192 n .. 8192 n + 8191 of the 262144 x 128
  view of the columns, so entry (r, l) of its blocks is the columns' entry (8192 n + r) * 128 + l. The corner entry of
  the output block after point 16 q + r is the sum of the loss sums of points 16 q .. 16 q + r (`corner_run`, by
  induction on r from the per-case values); the block is written back after points 15 and 31 into rows 0 and 1 of the
  [2, 8, 128] result array. The lines after the call add the two rows' corner entries and divide by the divisor's word.
  The two cores' sixteen sums make the sum over all 32 blocks, which is the sum over all entries of the columns
  (`sum_blocks`).
-/
import proofs.«126520_j24378234372365_1_alg».proof.Proof.KernelPieces
import proofs.«126520_j24378234372365_1_alg».proof.Proof.BlockSum
import Idealize.ShloMosaic.Lib.StableHlo.Run

noncomputable section

open scoped BigOperators
open Idealize.ShloMosaic Idealize.ShloMosaic.TcCoe Idealize.SL.Sem
open Idealize.ShloMosaic.Pipeline (Dat)
open Idealize.ShloMosaic.ValueIdx Cert.RangeLoss

namespace Cert.KernelIdeal.Loss

open Cert.KernelIdeal Cert.KernelIdeal.Gen

variable (m : (ℓ : Loc nD τ sig) → Buf (Elt Ideal) ℓ) (ρ : Dev nD → PrngReg)

/-! ## The corner entry after each point -/

/-- The two input blocks of a point, at their literal type. -/
abbrev pblk (c : Dev nD) (t : Fin cfg0.N) : Vec Ideal S8192x128 .f32 := iblk m c 0 t
abbrev tblk (c : Dev nD) (t : Fin cfg0.N) : Vec Ideal S8192x128 .f32 := iblk m c 1 t

/-- The loss sum of point n's block (0 past the grid). -/
def bs (c : Dev nD) (n : ℕ) : Ideal .f32 :=
  if h : n < cfg0.N then blockLoss (pblk m c ⟨n, h⟩) (tblk m c ⟨n, h⟩) else 0

/-- The output block's corner entry after point n (0 past the grid). -/
def cornerAt (c : Dev nD) (n : ℕ) : Ideal .f32 :=
  if h : n < cfg0.N then outsAt0 m c n h o3 else 0

theorem cornerAt_reset (c : Dev nD) (n : ℕ) (h : n < cfg0.N) (h0 : n % 16 = 0) : cornerAt m c n = bs m c n := by
  unfold cornerAt bs
  rw [dif_pos h, dif_pos h]
  refine (congrFun (outsAt0_A m c ⟨n, h⟩ h0) o3).trans ?_
  exact corner_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    ((hcond0_0 ⟨n, h⟩).mpr h0) (pblk m c ⟨n, h⟩) (tblk m c ⟨n, h⟩)

theorem cornerAt_step (c : Dev nD) (n : ℕ) (h : n < cfg0.N) (h0 : ¬n % 16 = 0) :
    cornerAt m c n = cornerAt m c (n - 1) + bs m c n := by
  have h' : n - 1 < cfg0.N := Nat.lt_of_le_of_lt (Nat.sub_le _ _) h
  unfold cornerAt bs
  rw [dif_pos h, dif_pos h, dif_pos h']
  refine (congrFun (outsAt0_B m c ⟨n, h⟩ h0) o3).trans ?_
  exact corner_B c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (fun hh => h0 ((hcond0_0 ⟨n, h⟩).mp hh)) (pblk m c ⟨n, h⟩) (tblk m c ⟨n, h⟩) (outsAt0 m c (n - 1) h')

/-- After point 16 q + r the corner entry is the sum of the loss sums of points 16 q .. 16 q + r. -/
theorem corner_run (c : Dev nD) (q : ℕ) : ∀ (r : ℕ), r < 16 → 16 * q + r < cfg0.N →
    cornerAt m c (16 * q + r) = ∑ k ∈ Finset.range (r + 1), bs m c (16 * q + k)
  | 0, _, h => by
    rw [cornerAt_reset m c _ h (by omega)]
    simp
  | r + 1, hr, h => by
    rw [cornerAt_step m c _ h (by omega), show 16 * q + (r + 1) - 1 = 16 * q + r from by omega,
      corner_run c q r (by omega) (by omega), Finset.sum_range_succ (fun k => bs m c (16 * q + k)) (r + 1)]

/-! ## The input blocks as entries of the argument columns -/

/-- The printed index maps over the grid: point t fetches row block t of both inputs, and writes back into row
    t / 16 of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, _)

/-- The 262144 x 128 view of a column reads entry 128 R + l at (R, l). -/
theorem view_apply {α : Type} (x : S33554432x1.Idx → α) (R : Fin 262144) (l : Fin 128) (n : Fin 33554432)
    (hn : n.val = R.val * 128 + l.val) :
    shapeCast S262144x128 (shapeCast S33554432 x shapeCasts_S33554432x1_S33554432) shapeCasts_S33554432_S262144x128 (ix2 R l)
      = x (ix2 n (0 : Fin 1)) := by
  refine (shapeCast_apply _ shapeCasts_S33554432_S262144x128 (ix2 R l) (ix1 n) ?_).trans
    (shapeCast_apply x shapeCasts_S33554432x1_S33554432 (ix1 n) (ix2 n (0 : Fin 1)) ?_)
  · rewrite [Shape.rowMajor_val_one, Shape.rowMajor_val_two]
    show n.val = R.val * 128 + l.val
    exact hn
  · rewrite [Shape.rowMajor_val_two, Shape.rowMajor_val_one]
    show n.val * 1 + 0 = n.val
    omega

/-- What the region finds in the two views: the host's two reshapes of the argument columns. -/
theorem V_v2 (c : Dev nD) : (V m c main_v2 : S262144x128.Idx → Ideal .f32)
    = shapeCast S262144x128 (shapeCast S33554432 (m ((c : Thread nD τ).loc main_arg0)) shapeCasts_S33554432x1_S33554432) shapeCasts_S33554432_S262144x128 := by
  show StableHlo.after hostOps0 (fun b => m (c, b)) (Proc.devRef .tc main_v2) = _
  after_results
  rfl
theorem V_v3 (c : Dev nD) : (V m c main_v3 : S262144x128.Idx → Ideal .f32)
    = shapeCast S262144x128 (shapeCast S33554432 (m ((c : Thread nD τ).loc main_arg1)) shapeCasts_S33554432x1_S33554432) shapeCasts_S33554432_S262144x128 := by
  show StableHlo.after hostOps0 (fun b => m (c, b)) (Proc.devRef .tc main_v3) = _
  after_results
  rfl

/-- The grid has 32 points: a point is a block number. -/
abbrev blockOf (t : Fin cfg0.N) : Fin 32 := t.cast N_0

/-- Entry (r, l) of point t's block of predictions is the predictions' entry (8192 t + r) * 128 + l. -/
theorem pblk_apply (c : Dev nD) (t : Fin cfg0.N) (r : Fin 8192) (l : Fin 128) :
    pblk m c t (ix2 r l) = m ((c : Thread nD τ).loc main_arg0) (ix2 (flat (blockOf t) r l) (0 : Fin 1)) := by
  obtain ⟨e0, e1, -, -, -, -, -⟩ := idx_facts t
  have ht : t.val < 32 := lt_of_lt_of_eq t.isLt N_0
  have hr := r.isLt
  have hl := l.isLt
  unfold pblk iblk
  rw [View.read_apply]
  show V m c main_v2 (((cfg0.win 0).blk t).view.emb (ix2 r l)) = _
  have he : ((cfg0.win 0).blk t).view.emb (ix2 r l) = ix2 (⟨8192 * t.val + r.val, by omega⟩ : Fin 262144) l := by
    funext a
    apply Fin.ext
    match a with
    | ⟨0, _⟩ => show win0_0.index t (0 : Fin 2) * 8192 + 1 * r.val = 8192 * t.val + r.val; omega
    | ⟨1, _⟩ => show win0_0.index t (1 : Fin 2) * 128 + 1 * l.val = l.val; omega
  rw [he, V_v2]
  exact view_apply _ _ l (flat (blockOf t) r l) rfl

theorem tblk_apply (c : Dev nD) (t : Fin cfg0.N) (r : Fin 8192) (l : Fin 128) :
    tblk m c t (ix2 r l) = m ((c : Thread nD τ).loc main_arg1) (ix2 (flat (blockOf t) r l) (0 : Fin 1)) := by
  obtain ⟨-, -, e0, e1, -, -, -⟩ := idx_facts t
  have ht : t.val < 32 := lt_of_lt_of_eq t.isLt N_0
  have hr := r.isLt
  have hl := l.isLt
  unfold tblk iblk
  rw [View.read_apply]
  show V m c main_v3 (((cfg0.win 1).blk t).view.emb (ix2 r l)) = _
  have he : ((cfg0.win 1).blk t).view.emb (ix2 r l) = ix2 (⟨8192 * t.val + r.val, by omega⟩ : Fin 262144) l := by
    funext a
    apply Fin.ext
    match a with
    | ⟨0, _⟩ => show win0_1.index t (0 : Fin 2) * 8192 + 1 * r.val = 8192 * t.val + r.val; omega
    | ⟨1, _⟩ => show win0_1.index t (1 : Fin 2) * 128 + 1 * l.val = l.val; omega
  rw [he, V_v3]
  exact view_apply _ _ l (flat (blockOf t) r l) rfl

/-- A point's loss sum, over the argument columns. -/
theorem blockLoss_eq (c : Dev nD) (t : Fin cfg0.N) :
    blockLoss (pblk m c t) (tblk m c t)
      = ∑ y : Blk3.Idx, sq (F := Ideal) (m ((c : Thread nD τ).loc main_arg0) (colIdx (blockOf t) y))
          (m ((c : Thread nD τ).loc main_arg1) (colIdx (blockOf t) y)) := by
  unfold blockLoss
  refine Finset.sum_congr rfl fun y _ => ?_
  exact congrArg₂ (sq (F := Ideal)) (pblk_apply m c t (y 1) (y 2)) (tblk_apply m c t (y 1) (y 2))

/-- All 32 loss sums together: the sum of the losses of all pairs. -/
theorem sum_bs (c : Dev nD) :
    ∑ k ∈ Finset.range 32, bs m c k
      = ∑ i : Col.Idx, sq (F := Ideal) (m ((c : Thread nD τ).loc main_arg0) i) (m ((c : Thread nD τ).loc main_arg1) i) := by
  refine (congrArg (fun n => ∑ k ∈ Finset.range n, bs m c k) (N_0.symm : (32 : ℕ) = cfg0.N)).trans ?_
  show ∑ k ∈ Finset.range cfg0.N, bs m c k = _
  unfold bs
  rw [sum_range_dite cfg0.N fun t => blockLoss (pblk m c t) (tblk m c t), sum_blocks]
  refine Fintype.sum_equiv (finCongr N_0) _ _ fun t => ?_
  exact blockLoss_eq m c t

/-! ## The result array after the run -/

theorem outsAt0_congr (c : Dev nD) {n n' : ℕ} (e : n = n') (h : n < cfg0.N) (h' : n' < cfg0.N) :
    outsAt0 m c n h = outsAt0 m c n' h' := by
  subst e; rfl

/-- Row cc of the result array: the output block after core cc's last point. -/
def outArr (c : Dev nD) : Vec Ideal S2x8x128 .f32 := fun i =>
  outsAt0 m c (16 * (i 0).val + 15) (by have h2 : (i 0).val < 2 := (i 0).isLt; rw [show cfg0.N = 32 from N_0]; omega)
    (ix3 (0 : Fin 1) (i 1) (i 2))

/-- What a writing-back point writes is its block of `outArr`. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  have ht : t.val < 32 := lt_of_lt_of_eq t.isLt N_0
  obtain ⟨-, -, -, -, e0, e1, e2⟩ := idx_facts t
  show (cfg0.win 2).cut (grid0.coords t) ((dats m 0 c).after 2 t) = _
  rw [after0_2]
  funext y
  have y0 : (y 0).val < 1 := (y 0).isLt
  have y1 : (y 1).val < 8 := (y 1).isLt
  have y2 : (y 2).val < 128 := (y 2).isLt
  rw [View.read_apply]
  show outsAt0 m c t.val t.isLt y = outArr m c (((cfg0.win 2).blk t).view.emb y)
  have he : ((cfg0.win 2).blk t).view.emb y = ix3 (⟨t.val / 16, by omega⟩ : Fin 2) (⟨(y 1).val, y1⟩ : Fin 8) (⟨(y 2).val, y2⟩ : Fin 128) := by
    funext a
    apply Fin.ext
    match a with
    | ⟨0, _⟩ => show win0_2.index t (0 : Fin 3) * 1 + 1 * (y 0).val = t.val / 16; omega
    | ⟨1, _⟩ => show win0_2.index t (1 : Fin 3) * 8 + 1 * (y 1).val = (y 1).val; omega
    | ⟨2, _⟩ => show win0_2.index t (2 : Fin 3) * 128 + 1 * (y 2).val = (y 2).val; omega
  rw [he]
  unfold outArr
  have hy : y = ix3 (0 : Fin 1) (⟨(y 1).val, y1⟩ : Fin 8) (⟨(y 2).val, y2⟩ : Fin 128) := by
    funext a
    apply Fin.ext
    match a with
    | ⟨0, _⟩ => show (y 0).val = 0; omega
    | ⟨1, _⟩ => rfl
    | ⟨2, _⟩ => rfl
  exact (congrFun (outsAt0_congr m c (show t.val = 16 * (t.val / 16) + 15 by omega) t.isLt _) y).trans (congrArg _ hy)

/-- Every entry of the result array is in the block of its row's last point. -/
theorem covered (c : Dev nD) (i : S2x8x128.Idx) :
    ∃ t : Fin cfg0.N, (cfg0.win 2).flush t = true ∧ i ∈ ((cfg0.win 2).blk t).view.set := by
  have i0 : (i 0).val < 2 := (i 0).isLt
  have i1 : (i 1).val < 8 := (i 1).isLt
  have i2 : (i 2).val < 128 := (i 2).isLt
  let t : Fin cfg0.N := ⟨16 * (i 0).val + 15, by rw [show cfg0.N = 32 from N_0]; omega⟩
  have tv : t.val = 16 * (i 0).val + 15 := rfl
  obtain ⟨-, -, -, -, e0, e1, e2⟩ := idx_facts t
  refine ⟨t, (flush0_2 t).mpr (by omega), ?_⟩
  show i ∈ ((View.whole main_v4).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- So the result array ends at `outArr`. -/
theorem final (c : Dev nD) : (dats m 0 c).arrAt 2 cfg0.N = outArr m c :=
  (dats m 0 c).arrAt_eq_of_cover 2 (outArr m c) (flushed_eq m c) (covered c)

/-- A row's corner entry: the sum of its core's sixteen loss sums. -/
theorem outArr_corner (c : Dev nD) (cc : Fin 2) :
    outArr m c (ix3 cc (0 : Fin 8) (0 : Fin 128)) = ∑ k ∈ Finset.range 16, bs m c (16 * cc.val + k) := by
  have hc := cc.isLt
  have h : 16 * cc.val + 15 < cfg0.N := by rw [show cfg0.N = 32 from N_0]; omega
  rw [← corner_run m c cc.val 15 (by omega) h]
  unfold cornerAt
  rw [dif_pos h]
  rfl

/-! ## The lines after the call -/

/-- The lines after the call, of the result array: the two rows' corner entries added, divided by the divisor. -/
def tailTerm (A : Vec Ideal S2x8x128 .f32) : S_.Idx → Ideal .f32 :=
  Host.divf
    (addf (shapeCast S_ (extractStridedSlice S1x1x1 ![0, 0, 0] A slices_S2x8x128_S1x1x1_0_0_0) shapeCasts_S1x1x1_S_)
      (shapeCast S_ (extractStridedSlice S1x1x1 ![1, 0, 0] A slices_S2x8x128_S1x1x1_1_0_0) shapeCasts_S1x1x1_S_))
    (constant S_ .f32 0x4C000000#32)

theorem tail_value (c : Dev nD) :
    Pipeline.afterTail₀ cfgs (dats m) 0 (V0 m) [hostOps1] c main_v10 = tailTerm (outArr m c) := by
  have hA : Pipeline.withArrays (cfgs 0).spec c (V0 m c) (fun w => (dats m 0 c).arrAt w (cfgs 0).N) (Proc.devRef .tc main_v4)
      = outArr m c :=
    (Pipeline.withArrays_arr spec0 launch0.win.arr_inj c _ _ 2).trans (final m c)
  unfold Pipeline.afterTail₀
  show StableHlo.after hostOps1 _ (Proc.devRef .tc main_v10) = _
  after_results
  rw [hA]
  rfl

theorem idx111 (a : S1x1x1.Idx) : a = ix3 (0 : Fin 1) (0 : Fin 1) (0 : Fin 1) := by
  funext d
  match d with
  | ⟨0, _⟩ => exact Subsingleton.elim (α := Fin 1) _ _
  | ⟨1, _⟩ => exact Subsingleton.elim (α := Fin 1) _ _
  | ⟨2, _⟩ => exact Subsingleton.elim (α := Fin 1) _ _

theorem scalar_of_row (A : Vec Ideal S2x8x128 .f32) (cc : Fin 2) (off : Fin 3 → Nat) (hoff : off = ![cc.val, 0, 0])
    (h : S2x8x128.Slices off S1x1x1) (j : S_.Idx) :
    shapeCast S_ (extractStridedSlice S1x1x1 off A h) shapeCasts_S1x1x1_S_ j = A (ix3 cc (0 : Fin 8) (0 : Fin 128)) := by
  subst hoff
  unfold shapeCast
  rw [idx111 (Shape.reshapeEquiv _ _)]
  exact extractStridedSlice_apply _ A h _ (ix3 cc (0 : Fin 8) (0 : Fin 128)) fun a => by
    match a with
    | ⟨0, _⟩ => rfl
    | ⟨1, _⟩ => rfl
    | ⟨2, _⟩ => rfl

/-- The kernel's result, entry by entry (it has one): the sum of the losses of all pairs, divided by the divisor. -/
theorem tail_apply (c : Dev nD) (j : S_.Idx) :
    tailTerm (outArr m c) j
      = FloatOps.hostDivf (∑ i : Col.Idx, sq (F := Ideal) (m ((c : Thread nD τ).loc main_arg0) i) (m ((c : Thread nD τ).loc main_arg1) i))
          (FloatOps.ofBits (F := Ideal) .f32 0x4C000000#32) := by
  unfold tailTerm
  show FloatOps.hostDivf (_ + _) _ = _
  have r0 := scalar_of_row (outArr m c) 0 ![0, 0, 0] rfl slices_S2x8x128_S1x1x1_0_0_0 j
  have r1 := scalar_of_row (outArr m c) 1 ![1, 0, 0] rfl slices_S2x8x128_S1x1x1_1_0_0 j
  have hsum : ∑ k ∈ Finset.range 16, bs m c (16 * ((0 : Fin 2) : ℕ) + k) + ∑ k ∈ Finset.range 16, bs m c (16 * ((1 : Fin 2) : ℕ) + k)
      = ∑ k ∈ Finset.range 32, bs m c k := by
    rw [show (32 : ℕ) = 16 + 16 from rfl, Finset.sum_range_add]
    refine congrArg₂ (· + ·) (Finset.sum_congr rfl fun k _ => congrArg (bs m c) ?_)
      (Finset.sum_congr rfl fun k _ => congrArg (bs m c) ?_)
    · show 16 * 0 + k = k
      omega
    · show 16 * 1 + k = 16 + k
      omega
  rw [r0, r1, outArr_corner, outArr_corner, ← sum_bs m c, hsum]
  rfl

/-! ## The run, read -/

/-- The frame run re-posted: the result at the lines after the call of `outArr`, the arguments unchanged. -/
theorem run : θ_run defs (onTc (τ := τ) (main (F := Ideal))) ⟨m, fun _ => 0, ρ⟩ fun r => ∀ c : Dev nD,
      r.2.mem ((c.tc : Thread nD τ).loc main_v10) = tailTerm (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Loss

end
-- ==== Proof.ScatterSet.lean ====
import Idealize.ShloMosaic.Lib.ValueIdx

/-!
# Reading a column overwrite without running it

The scatter that overwrites column 0 of an `[N, 1]` array with an `[N]` vector is a left fold over
the `N` update positions. Its value at row `p` is the update's entry `p`. The reason: update position
`j` lands at operand index `(j, 0)`, so the only position that lands at `(p, 0)` is `p` itself, and
it writes `upd p` there. `N` stays a variable; nothing here unrolls the fold.
-/

noncomputable section

namespace Cert.RangeLoss

open Idealize.ShloMosaic Idealize.ShloMosaic.ValueIdx

/-- Reading one entry of a left fold of point overwrites. The step either overwrites the entry
    its position names (`hhit`) or leaves the entry alone (`hmiss`). If every position of the
    list that names entry `i` writes the value `y` there, and either the start value already
    holds `y` at `i` or some position of the list names `i`, the folded function holds `y` at
    `i`. The list may repeat positions. -/
theorem foldl_read {ι κ β : Type} (step : (κ → β) → ι → (κ → β)) (ρ : ι → Option κ) (v : ι → β)
    (i : κ) (y : β)
    (hhit : ∀ r n, ρ n = some i → step r n i = v n)
    (hmiss : ∀ r n, ρ n ≠ some i → step r n i = r i) :
    ∀ (L : List ι) (x : κ → β),
      (∀ n ∈ L, ρ n = some i → v n = y) →
      (x i = y ∨ ∃ n ∈ L, ρ n = some i) →
      (L.foldl step x) i = y := by
  intro L
  induction L with
  | nil =>
    intro x _ h
    rcases h with h | ⟨n, hn, _⟩
    · exact h
    · cases hn
  | cons n L ih =>
    intro x hall h
    rw [List.foldl_cons]
    apply ih
    · intro m hm; exact hall m (List.mem_cons_of_mem _ hm)
    · by_cases hn : ρ n = some i
      · left; rw [hhit x n hn]; exact hall n (List.mem_cons_self ..) hn
      · rcases h with h | ⟨m, hm, hρ⟩
        · left; rw [hmiss x n hn]; exact h
        · rcases List.mem_cons.1 hm with rfl | hm'
          · exact absurd hρ hn
          · right; exact ⟨m, hm', hρ⟩

/-- Where update position `p` lands. On operand axis 0 the start is `0` (the axis is not a scattered
    one) and the window coordinate is `p` (axis 0 is the one kept axis, fed by the update's axis 0).
    On operand axis 1 the start is the scatter index, which is `0`, and the window coordinate is `0`
    (the axis is inserted). Both sums are inside the operand, so the landing index is `(p, 0)`. -/
theorem resultIdx_col {N w : Nat}
    (wf : ScatterDims.WF (⟨2, ![N, 1]⟩ : Shape) (⟨1, ![1]⟩ : Shape) (⟨1, ![N]⟩ : Shape) [0] [1] [1] 0)
    (idx : IVec (⟨1, ![1]⟩ : Shape) w) (hidx : ∀ k, (idx k).toInt = 0) (p : Fin N) :
    (⟨[0], [1], [1], 0, wf⟩ : ScatterDims (⟨2, ![N, 1]⟩ : Shape) (⟨1, ![1]⟩ : Shape) (⟨1, ![N]⟩ : Shape)).resultIdx?
      (ix1 p) idx = some (ix2 p (0 : Fin 1)) := by
  -- the start is 0 on every axis: a scattered axis reads the index, which is 0; any other axis has start 0
  have hs : ∀ a, (⟨[0], [1], [1], 0, wf⟩ : ScatterDims (⟨2, ![N, 1]⟩ : Shape) (⟨1, ![1]⟩ : Shape) (⟨1, ![N]⟩ : Shape)).start (ix1 p) idx a = 0 := by
    intro a
    unfold ScatterDims.start
    split
    · exact hidx _
    · rfl
  -- axis 0 is kept, and its window coordinate is the update's coordinate p
  have hw0 : (⟨[0], [1], [1], 0, wf⟩ : ScatterDims (⟨2, ![N, 1]⟩ : Shape) (⟨1, ![1]⟩ : Shape) (⟨1, ![N]⟩ : Shape)).window (ix1 p) (0 : Fin 2) = p.val := by
    unfold ScatterDims.window
    split
    · rfl
    · rename_i h
      exact absurd (show (0 : Fin 2) ∈ (List.finRange 2).filter (· ∉ [(1 : Fin 2)]) by decide) h
  -- axis 1 is inserted, so its window coordinate is 0
  have hw1 : (⟨[0], [1], [1], 0, wf⟩ : ScatterDims (⟨2, ![N, 1]⟩ : Shape) (⟨1, ![1]⟩ : Shape) (⟨1, ![N]⟩ : Shape)).window (ix1 p) (1 : Fin 2) = 0 := by
    unfold ScatterDims.window
    split
    · rename_i h
      exact absurd h (show (1 : Fin 2) ∉ (List.finRange 2).filter (· ∉ [(1 : Fin 2)]) by decide)
    · rfl
  -- both sums are inside the operand: p < N on axis 0, 0 < 1 on axis 1
  have hb : ∀ a : Fin 2,
      0 ≤ (⟨[0], [1], [1], 0, wf⟩ : ScatterDims (⟨2, ![N, 1]⟩ : Shape) (⟨1, ![1]⟩ : Shape) (⟨1, ![N]⟩ : Shape)).start (ix1 p) idx a + ((⟨[0], [1], [1], 0, wf⟩ : ScatterDims (⟨2, ![N, 1]⟩ : Shape) (⟨1, ![1]⟩ : Shape) (⟨1, ![N]⟩ : Shape)).window (ix1 p) a : Int) ∧
      (⟨[0], [1], [1], 0, wf⟩ : ScatterDims (⟨2, ![N, 1]⟩ : Shape) (⟨1, ![1]⟩ : Shape) (⟨1, ![N]⟩ : Shape)).start (ix1 p) idx a + ((⟨[0], [1], [1], 0, wf⟩ : ScatterDims (⟨2, ![N, 1]⟩ : Shape) (⟨1, ![1]⟩ : Shape) (⟨1, ![N]⟩ : Shape)).window (ix1 p) a : Int)
        < ((⟨2, ![N, 1]⟩ : Shape).size a : Int) := by
    rw [Fin.forall_fin_two, hs 0, hs 1, hw0, hw1]
    have hp := p.isLt
    refine ⟨⟨by omega, ?_⟩, ⟨by omega, ?_⟩⟩
    · show (0 : Int) + (p.val : Int) < (N : Int)
      omega
    · show (0 : Int) + ((0 : Nat) : Int) < ((1 : Nat) : Int)
      omega
  unfold ScatterDims.resultIdx?
  split
  · refine congrArg some (funext fun a => ?_)
    match a with
    | ⟨0, _⟩ =>
      refine Fin.ext ?_
      show ((⟨[0], [1], [1], 0, wf⟩ : ScatterDims (⟨2, ![N, 1]⟩ : Shape) (⟨1, ![1]⟩ : Shape) (⟨1, ![N]⟩ : Shape)).start (ix1 p) idx (0 : Fin 2) + ((⟨[0], [1], [1], 0, wf⟩ : ScatterDims (⟨2, ![N, 1]⟩ : Shape) (⟨1, ![1]⟩ : Shape) (⟨1, ![N]⟩ : Shape)).window (ix1 p) (0 : Fin 2) : Int)).toNat = p.val
      rw [hs 0, hw0]
      omega
    | ⟨1, _⟩ =>
      refine Fin.ext ?_
      show ((⟨[0], [1], [1], 0, wf⟩ : ScatterDims (⟨2, ![N, 1]⟩ : Shape) (⟨1, ![1]⟩ : Shape) (⟨1, ![N]⟩ : Shape)).start (ix1 p) idx (1 : Fin 2) + ((⟨[0], [1], [1], 0, wf⟩ : ScatterDims (⟨2, ![N, 1]⟩ : Shape) (⟨1, ![1]⟩ : Shape) (⟨1, ![N]⟩ : Shape)).window (ix1 p) (1 : Fin 2) : Int)).toNat = 0
      rw [hs 1, hw1]
      omega
  · rename_i h
    exact absurd hb h

/-- The column overwrite read at row `p`. Every update position that lands at `(p, 0)` is `p`
    itself, because position `j` lands at `(j, 0)`; position `p` occurs in the list of positions;
    so the fold holds `upd p` at `(p, 0)`, whatever the operand held there. -/
theorem scatter_set_col {N w : Nat} {α : Type}
    (wf : ScatterDims.WF (⟨2, ![N, 1]⟩ : Shape) (⟨1, ![1]⟩ : Shape) (⟨1, ![N]⟩ : Shape) [0] [1] [1] 0)
    (x : (⟨2, ![N, 1]⟩ : Shape).Idx → α) (idx : IVec (⟨1, ![1]⟩ : Shape) w) (hidx : ∀ k, (idx k).toInt = 0)
    (upd : (⟨1, ![N]⟩ : Shape).Idx → α) (p : Fin N) :
    Host.scatter (⟨[0], [1], [1], 0, wf⟩ : ScatterDims (⟨2, ![N, 1]⟩ : Shape) (⟨1, ![1]⟩ : Shape) (⟨1, ![N]⟩ : Shape))
      (fun _ b => b) x idx upd (ix2 p (0 : Fin 1)) = upd (ix1 p) := by
  unfold Host.scatter
  refine foldl_read _
    (fun n => (⟨[0], [1], [1], 0, wf⟩ : ScatterDims (⟨2, ![N, 1]⟩ : Shape) (⟨1, ![1]⟩ : Shape) (⟨1, ![N]⟩ : Shape)).resultIdx? ((⟨1, ![N]⟩ : Shape).rowMajor.symm n) idx)
    (fun n => upd ((⟨1, ![N]⟩ : Shape).rowMajor.symm n)) (ix2 p (0 : Fin 1)) (upd (ix1 p))
    ?hit ?miss _ x ?all ?ex
  case hit =>
    -- a position that lands at (p, 0) overwrites that entry with its update value
    intro r n h
    dsimp only at h ⊢
    generalize (⟨[0], [1], [1], 0, wf⟩ : ScatterDims (⟨2, ![N, 1]⟩ : Shape) (⟨1, ![1]⟩ : Shape) (⟨1, ![N]⟩ : Shape)).resultIdx? ((⟨1, ![N]⟩ : Shape).rowMajor.symm n) idx = o at h ⊢
    cases o with
    | none => cases h
    | some i₀ =>
      have e : i₀ = ix2 p (0 : Fin 1) := Option.some.inj h
      subst e
      exact if_pos rfl
  case miss =>
    -- a position that lands elsewhere, or nowhere, leaves the entry at (p, 0) alone
    intro r n h
    dsimp only at h ⊢
    generalize (⟨[0], [1], [1], 0, wf⟩ : ScatterDims (⟨2, ![N, 1]⟩ : Shape) (⟨1, ![1]⟩ : Shape) (⟨1, ![N]⟩ : Shape)).resultIdx? ((⟨1, ![N]⟩ : Shape).rowMajor.symm n) idx = o at h ⊢
    cases o with
    | none => rfl
    | some i₀ => exact if_neg fun e => h (by rw [e])
  case all =>
    -- a position that lands at (p, 0) is p, so the value it writes is upd p
    intro n _ h
    dsimp only at h ⊢
    generalize (⟨1, ![N]⟩ : Shape).rowMajor.symm n = j at h ⊢
    obtain ⟨q, rfl⟩ : ∃ q : Fin N, j = ix1 q := ⟨j 0, eq_ix1 j⟩
    rw [resultIdx_col wf idx hidx q] at h
    have hq : q = p := congrFun (Option.some.inj h) (0 : Fin 2)
    rw [hq]
  case ex =>
    -- position p is one of the positions, and it lands at (p, 0)
    right
    refine ⟨(⟨1, ![N]⟩ : Shape).rowMajor (ix1 p), List.mem_finRange _, ?_⟩
    dsimp only
    rw [Equiv.symm_apply_apply]
    exact resultIdx_col wf idx hidx p

end Cert.RangeLoss
-- ==== Proof.RefSide.lean ====
/-
  The reference, entry by entry. It overwrites column 0 of the targets (the only column) with the band-adjusted
  targets, subtracts from the predictions, squares, sums every entry from the zero word and divides by the word of
  2^25. Read at an index, the overwritten column at row n is the adjusted target of row n, so the squared difference at
  (n, 0) is the per-pair loss `sq` of the pair at (n, 0), and the result is (0 + the sum of `sq` over all pairs)
  divided by the divisor.
-/
import proofs.«126520_j24378234372365_1_alg».proof.Proof.Gen.ReferenceIdeal.Run
import proofs.«126520_j24378234372365_1_alg».proof.Proof.Gen.ReferenceIdeal.Read
import proofs.«126520_j24378234372365_1_alg».proof.Proof.BlockSum
import proofs.«126520_j24378234372365_1_alg».proof.Proof.Elem
import proofs.«126520_j24378234372365_1_alg».proof.Proof.ScatterSet

noncomputable section

open scoped BigOperators
open Idealize.ShloMosaic Idealize.ShloMosaic.TcCoe Idealize.SL.Sem
open Idealize.ShloMosaic.ValueIdx Cert.RangeLoss

namespace Cert.ReferenceIdeal.RefLoss

open Cert.ReferenceIdeal Cert.ReferenceIdeal.Gen Cert.ReferenceIdeal.Read

/-- Row n of the flat view reads entry (n, 0) of the column. -/
theorem idx_v0 (p : Fin 33554432) : idx_main_v0 (ix1 p) = ix2 p (0 : Fin 1) := by
  funext a
  match a with
  | ⟨0, _⟩ => exact Fin.ext (Nat.div_one _)
  | ⟨1, _⟩ => rfl
theorem idx_v1 (p : Fin 33554432) : idx_main_v1 (ix1 p) = ix2 p (0 : Fin 1) := by
  funext a
  match a with
  | ⟨0, _⟩ => exact Fin.ext (Nat.div_one _)
  | ⟨1, _⟩ => rfl

/-- The overwritten column at row n is the adjusted target of row n: the one scatter index is 0, and the update
    for row n lands at (n, 0). -/
theorem v11_apply (x0 x1 : (⟨S33554432x1, .f32⟩ : BufTy).Contents (Elt Ideal)) (p : Fin 33554432) :
    val_main_v11 (F := Ideal) x0 x1 (ix2 p (0 : Fin 1)) = val_main_v9 (F := Ideal) x0 x1 (ix1 p) := by
  unfold val_main_v11
  exact scatter_set_col _ x1 (val_main_v10 (F := Ideal)) (fun k => by rw [val_main_v10_apply, val_main_c_apply]; rfl)
    (val_main_v9 (F := Ideal) x0 x1) p

/-- The adjusted target of row n. -/
theorem v9_apply (x0 x1 : (⟨S33554432x1, .f32⟩ : BufTy).Contents (Elt Ideal)) (p : Fin 33554432) :
    val_main_v9 (F := Ideal) x0 x1 (ix1 p)
      = Scalar.select (inBand (F := Ideal) (x0 (ix2 p (0 : Fin 1))) (x1 (ix2 p (0 : Fin 1)))) (x0 (ix2 p (0 : Fin 1))) (x1 (ix2 p (0 : Fin 1))) := by
  rw [val_main_v9_apply, val_main_v8_apply, val_main_v4_apply, val_main_v7_apply, val_main_v3_apply, val_main_v6_apply,
    val_main_v2_apply, val_main_v5_apply, val_main_cst_apply, val_main_cst_0_apply, val_main_v0_apply, val_main_v1_apply,
    idx_v0, idx_v1]
  rfl

/-- The squared difference at an entry is the pair's loss. -/
theorem v13_row (x0 x1 : (⟨S33554432x1, .f32⟩ : BufTy).Contents (Elt Ideal)) (p : Fin 33554432) :
    val_main_v13 (F := Ideal) x0 x1 (ix2 p (0 : Fin 1)) = sq (F := Ideal) (x0 (ix2 p (0 : Fin 1))) (x1 (ix2 p (0 : Fin 1))) := by
  rw [val_main_v13_apply, val_main_v12_apply, v11_apply, v9_apply]
  rfl

theorem v13_apply (x0 x1 : (⟨S33554432x1, .f32⟩ : BufTy).Contents (Elt Ideal)) (i : S33554432x1.Idx) :
    val_main_v13 (F := Ideal) x0 x1 i = sq (F := Ideal) (x0 i) (x1 i) := by
  have hi : i = ix2 (⟨(i 0).val, (i 0).isLt⟩ : Fin 33554432) (0 : Fin 1) := by
    funext a
    match a with
    | ⟨0, _⟩ => rfl
    | ⟨1, _⟩ => exact Subsingleton.elim (α := Fin 1) _ _
  rw [hi]
  exact v13_row x0 x1 _

/-- The reference's result: the zero word plus the sum of the losses of all pairs, divided by the divisor's word. -/
def lossOf (x0 x1 : Col.Idx → Ideal .f32) : Ideal .f32 :=
  FloatOps.hostDivf (FloatOps.ofBits (F := Ideal) .f32 0x00000000#32 + ∑ i : Col.Idx, sq (F := Ideal) (x0 i) (x1 i))
    (FloatOps.ofBits (F := Ideal) .f32 0x4C000000#32)

theorem v15_apply (x0 x1 : (⟨S33554432x1, .f32⟩ : BufTy).Contents (Elt Ideal)) (i : S_.Idx) :
    val_main_v15 (F := Ideal) x0 x1 i = lossOf x0 x1 := by
  rw [val_main_v15_apply, val_main_v14_apply, val_main_cst_1_apply, val_main_cst_2_apply]
  unfold lossOf
  refine congrArg (fun s => FloatOps.hostDivf (FloatOps.ofBits (F := Ideal) .f32 0x00000000#32 + s) (FloatOps.ofBits (F := Ideal) .f32 0x4C000000#32)) ?_
  exact Finset.sum_congr rfl fun j _ => v13_apply x0 x1 j

end Cert.ReferenceIdeal.RefLoss

end
-- ==== Proof.lean ====
/-
  A range loss: for predictions p and targets t (two columns of 33554432 numbers), a target strictly inside its
  prediction's confidence band, p * c_hi > t and p * c_lo < t, is replaced by the prediction; the loss is the mean of
  the squared differences. The kernel streams the columns as a 262144 x 128 array in 32 blocks of 8192 rows over two
  cores, adds each block's loss sum into the corner entry of its core's output block, and the lines after the call add
  the two corner entries and divide by 2^25. The reference subtracts the adjusted column, squares, sums all entries and
  divides by the same word.

  Over the extended reals both are (the sum over all pairs of the per-pair loss) divided by the divisor's word: the
  per-pair arithmetic is the same term on both sides (same band words, same comparisons, same select), the kernel's
  32 block sums regroup the one sum (a bijection between (block, position) and the column's entries; addition is
  commutative and associative on the extended reals, so finiteness of the inputs is not used), and the zero word
  both sums start from is the number 0.

  The three programs run: the two kernel programs by their generated frame runs, the reference by its generated run.
  The ideal pass rewrote nothing, so the kernel's idealization is its own text.
-/
import proofs.«126520_j24378234372365_1_alg».proof.Defs
import proofs.«126520_j24378234372365_1_alg».proof.Proof.Gen.Kernel
import proofs.«126520_j24378234372365_1_alg».proof.Proof.Gen.Kernel.Skeleton
import proofs.«126520_j24378234372365_1_alg».proof.Proof.Gen.Kernel.Launch
import proofs.«126520_j24378234372365_1_alg».proof.Proof.Gen.Kernel.Points
import proofs.«126520_j24378234372365_1_alg».proof.Proof.Gen.Kernel.Frame
import proofs.«126520_j24378234372365_1_alg».proof.Proof.Gen.KernelIdeal
import proofs.«126520_j24378234372365_1_alg».proof.Proof.Gen.KernelIdeal.Skeleton
import proofs.«126520_j24378234372365_1_alg».proof.Proof.Gen.KernelIdeal.Launch
import proofs.«126520_j24378234372365_1_alg».proof.Proof.Gen.KernelIdeal.Points
import proofs.«126520_j24378234372365_1_alg».proof.Proof.Gen.KernelIdeal.Frame
import proofs.«126520_j24378234372365_1_alg».proof.Proof.Gen.ReferenceIdeal
import proofs.«126520_j24378234372365_1_alg».proof.Proof.Gen.ReferenceIdeal.Run
import proofs.«126520_j24378234372365_1_alg».proof.Proof.Gen.ReferenceIdeal.Read
import proofs.«126520_j24378234372365_1_alg».proof.Proof.Gen.Pre_finite_inputs
import proofs.«126520_j24378234372365_1_alg».proof.Proof.KernelValue
import proofs.«126520_j24378234372365_1_alg».proof.Proof.RefSide
import Idealize.ShloMosaic.Adequacy
import Idealize.ShloMosaic.Init

noncomputable section

namespace Cert.Proof

open Idealize.ShloMosaic Idealize.SL.Sem

/-- Both idealized programs end with the same number: the kernel's result array read through the lines after the call
    is the sum of all pairs' losses over the divisor (`tail_apply`), and so is the reference's result (`v15_apply`),
    whose sum starts from the zero word, the number 0. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Loss.tailTerm (Cert.KernelIdeal.Loss.outArr m c), Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _).trans ?_
  funext j
  show Cert.ReferenceIdeal.Read.val_main_v15 (F := Ideal) _ _ j = Cert.KernelIdeal.Loss.tailTerm (Cert.KernelIdeal.Loss.outArr m c) j
  rw [Cert.ReferenceIdeal.RefLoss.v15_apply, Cert.KernelIdeal.Loss.tail_apply, (hagree c).1, (hagree c).2]
  unfold Cert.ReferenceIdeal.RefLoss.lossOf
  rw [show FloatOps.ofBits (F := Ideal) .f32 0x00000000#32 = (0 : EReal) from Ideal.ofBits_zero_f32, zero_add]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
